-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_16 : BitVec 32 := 0#32
  let v31 : BitVec 1 := Scalar.cmpi .ne v30 c0_i32_16
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S_, .f32⟩
  | .hbm, ⟨22, _⟩ => ⟨S4096x4096, .f32⟩
  | .hbm, ⟨23, _⟩ => ⟨S4096x4096, .i1⟩
  | .hbm, ⟨24, _⟩ => ⟨S4096x4096, .i1⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_v3 : Ref sig .tc := ⟨.hbm, 17, rfl⟩
abbrev main_cst_4 : Ref sig .tc := ⟨.hbm, 18, rfl⟩
abbrev main_v4 : Ref sig .tc := ⟨.hbm, 19, rfl⟩
abbrev main_v5 : Ref sig .tc := ⟨.hbm, 20, rfl⟩
abbrev main_cst_5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_6 : Ref sig .tc := ⟨.hbm, 25, rfl⟩
abbrev main_call2_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid point's body leaves behind, as values.

  At every grid point the body adds one partial product to the accumulator: with `x` the point's block of the left
  operand, `w` its block of the weights and `acc` what the accumulator held, it leaves `step w x acc` (the payload
  `k0_pay2`: `acc + x · tern w`). The three control cases differ only in what `acc` is and in whether the result block
  is written:
    * first contraction block (k = 0): the accumulator is first set to the zero block `k0_pay1`, so it ends at
      `step w x 0`;
    * middle blocks (0 < k < 7): it ends at `step w x acc` over what the point before left;
    * last block (k = 7): the same, and the output block receives a copy of the accumulator's final contents.
  Each statement is read off the stores the body's run recorded: a store of a whole buffer overwrites everything
  before it, and a load of a whole buffer after such a store reads the stored value back.
-/
import proofs.«144703_j14027363189199_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of a store or load of a whole buffer: zero on both axes. -/
theorem hz : (![0, 0] : Fin 2 → Nat) = fun _ => 0 := funext fun a => by fin_cases a <;> rfl

/-- First contraction block: the accumulator ends at the step over the zero block. -/
theorem scratch_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x512 .f32) (x1 : Vec F S512x1024 .f32) :
    sout0_A_0 c i arg3 harg3 arg4 harg4 arg5 harg5 arg6 harg6 hc0 hc1 x0 x1 = k0_pay2 x1 x0 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz]
  simp only [View.readAt_eq_ld, harg3.read_unread, harg4.read_unread, View.readCov_unit_zero (S := S1024x1024) _ hz,
    View.ld_unit_zero (S := S1024x512) hz, View.ld_unit_zero (S := S512x1024) hz, View.ld_unit_zero (S := S1024x1024) hz]

/-- A middle contraction block: the accumulator ends at the step over what it held. -/
theorem scratch_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S512x1024 .f32) (xs0 : Vec F S1024x1024 .f32) :
    sout0_B_0 c i arg3 harg3 arg4 harg4 arg5 harg5 arg6 harg6 hc0 hc1 x0 x1 xs0 = k0_pay2 x1 x0 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread,
    View.ld_unit_zero (S := S1024x512) hz, View.ld_unit_zero (S := S512x1024) hz, View.ld_unit_zero (S := S1024x1024) hz]

/-- The last contraction block: the accumulator ends at the step over what it held, -/
theorem scratch_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    sout0_C_0 c i arg3 harg3 arg4 harg4 arg5 harg5 arg6 harg6 hc0 hc1 x0 x1 xs0 = k0_pay2 x1 x0 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread,
    View.ld_unit_zero (S := S1024x512) hz, View.ld_unit_zero (S := S512x1024) hz, View.ld_unit_zero (S := S1024x1024) hz]

/-- and the output block receives the accumulator's final contents. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S512x1024 .f32) (xs0 : Vec F S1024x1024 .f32) :
    out0_C_2 c i arg3 harg3 arg4 harg4 arg5 harg5 arg6 harg6 hc0 hc1 x0 x1 xs0 = k0_pay2 x1 x0 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.readCov_unit_zero (S := S1024x1024) _ hz,
    View.ld_unit_zero (S := S1024x512) hz, View.ld_unit_zero (S := S512x1024) hz, View.ld_unit_zero (S := S1024x1024) hz]

end Cert.KernelIdeal.Pieces

end
-- ==== Proof.Tern.lean ====
/-
  Ternarization of one weight, and the straight-through form of it.

  A weight `w` is clipped to [-1, 1], replaced by its sign (+1 where the clipped value is ≥ 0, else -1),
  and set to 0 where the clipped value lies in the band [-1/2, 1/2]. Both programs spell this with the same
  comparisons and the same literal words, so one scalar function `ternE` is what each of their operation
  chains computes at an element. The reference does not multiply by `ternE w` itself but by
  `w + (ternE w - w)`; on a finite `w` the two summands `w` and `-w` cancel in the reals, because
  `ternE w` is one of the three reals 0, 1, -1. (At an infinite `w` the sum `w + (t - w)` is not `t`:
  this is where finiteness of the weights is used.)
-/
import Idealize.ShloMosaic.PureOps.Ideal
import Idealize.ShloMosaic.PureOps.Ideal.Laws
import Idealize.ShloMosaic.Lib.ValueIdx

noncomputable section

namespace Cert.Tern

open Idealize.ShloMosaic

/-- The clipped weight: `min 1 (max (-1) w)`, the bounds as the literal words of `1.0` and `-1.0`. -/
def clipE (w : EReal) : EReal :=
  min (Ideal.ofBits .f32 0x3F800000#32) (max (Ideal.ofBits .f32 0xBF800000#32) w)

/-- The ternarized weight: 0 inside the band `-1/2 ≤ clip w ≤ 1/2`, otherwise the sign of the clipped weight
    (+1 at `clip w ≥ 0`, else -1). Comparisons are the extended reals' order read as one bit. -/
def ternE (w : EReal) : EReal :=
  Scalar.select
    (IntOp.andi (Ideal.cmp .oge (clipE w) (Ideal.ofBits .f32 0xBF000000#32))
      (Ideal.cmp .ole (clipE w) (Ideal.ofBits .f32 0x3F000000#32)))
    (Ideal.ofBits .f32 0x00000000#32)
    (Scalar.select (Ideal.cmp .oge (clipE w) (Ideal.ofBits .f32 0x00000000#32))
      (Ideal.ofBits .f32 0x3F800000#32) (Ideal.ofBits .f32 0xBF800000#32))

/-- The ternarized weight is one of the reals 0, 1, -1; in particular it is finite. -/
theorem ternE_real (w : EReal) : ∃ t : ℝ, ternE w = (t : EReal) := by
  unfold ternE Scalar.select
  split_ifs
  · exact ⟨0, by rw [Ideal.ofBits_zero_f32]; rfl⟩
  · exact ⟨1, by rw [show Ideal.ofBits .f32 0x3F800000#32 = 1 from IdealRules.sign_bit.ideal_onePat .f32]; rfl⟩
  · exact ⟨-1, by rw [show Ideal.ofBits .f32 0xBF800000#32 = -1 from IdealRules.sign_bit.ideal_negOnePat .f32]; rfl⟩

/-- In the reals `r + (t - r) = t`; read in the extended reals at finite `r` and `t`. -/
theorem add_sub_cancel_coe (r t : ℝ) : (r : EReal) + ((t : EReal) - (r : EReal)) = (t : EReal) := by
  rw [← EReal.coe_sub, ← EReal.coe_add]
  exact congrArg _ (by ring)

/-- The straight-through weight `w + (ternE w - w)` of a FINITE weight is the ternarized weight. -/
theorem ste_eq (w : EReal) (hw : ∃ r : ℝ, w = (r : EReal)) : w + (ternE w - w) = ternE w := by
  obtain ⟨r, rfl⟩ := hw
  obtain ⟨t, ht⟩ := ternE_real (r : EReal)
  rw [ht]
  exact add_sub_cancel_coe r t

end Cert.Tern

end
-- ==== Proof.Spec.lean ====
/-
  The result both programs compute, as ONE function of the two argument arrays:

      G X W (r, c) = ∑ k < 4096,  X (r, k) · tern (W (k, c)),

  the product of `X` with the ternarized weights. The kernel does not form this sum at once: it walks the
  contraction axis in 8 blocks of 512 and adds one block's partial product after another into an accumulator. The
  extended reals under addition are a commutative monoid, so the sum over `k < 8 · 512` is the sum over the
  blocks `s < 8` of the sums over `kk < 512` at `k = 512 · s + kk` (`G_eq_sum_blocks`); no finiteness is needed
  for that. Entries are addressed by natural numbers (`entry`, zero outside the array) so that a block's rows and
  columns are plain arithmetic.
-/
import Mathlib.Algebra.BigOperators.Fin
import Mathlib.Algebra.BigOperators.Group.Finset.Basic
import Idealize.ShloMosaic.PureOps.Ideal
import Idealize.ShloMosaic.Lib.ValueIdx
import proofs.«144703_j14027363189199_1_alg».proof.Proof.Tern

noncomputable section

namespace Cert.Spec

open Idealize.ShloMosaic Idealize.ShloMosaic.ValueIdx

/-- A 4096 × 4096 array of extended reals. -/
abbrev Mat : Type := (⟨2, ![4096, 4096]⟩ : Shape).Idx → EReal

/-- Entry `(r, c)` of an array, addressed by naturals; `0` outside it (never consulted). -/
def entry (A : Mat) (r c : ℕ) : EReal :=
  if h : r < 4096 ∧ c < 4096 then A (ix2 ⟨r, h.1⟩ ⟨c, h.2⟩) else 0

theorem entry_ix2 (A : Mat) (r c : Fin 4096) : entry A r.val c.val = A (ix2 r c) := by
  unfold entry
  rw [dif_pos ⟨r.isLt, c.isLt⟩]

theorem entry_of_lt (A : Mat) (r c : ℕ) (hr : r < 4096) (hc : c < 4096) : entry A r c = A (ix2 ⟨r, hr⟩ ⟨c, hc⟩) := by
  unfold entry
  rw [dif_pos ⟨hr, hc⟩]

/-- THE RESULT: `X` times the ternarized `W`. -/
def G (X W : Mat) : Mat := fun i => ∑ k : Fin 4096, X (ix2 (i 0) k) * Cert.Tern.ternE (W (ix2 k (i 1)))

/-- The contribution of contraction block `s` (the indices `512·s … 512·s + 511`) to entry `(r, c)` of the result. -/
def blockTerm (X W : Mat) (r c s : ℕ) : EReal :=
  ∑ kk ∈ Finset.range 512, entry X r (512 * s + kk) * Cert.Tern.ternE (entry W (512 * s + kk) c)

/-- A sum over `b · n` consecutive naturals is the sum over `n` consecutive runs of `b`. -/
theorem sum_range_blocks {M : Type*} [AddCommMonoid M] (f : ℕ → M) (b : ℕ) :
    ∀ n : ℕ, ∑ κ ∈ Finset.range (b * n), f κ = ∑ s ∈ Finset.range n, ∑ kk ∈ Finset.range b, f (b * s + kk)
  | 0 => by simp
  | n + 1 => by
    rw [Nat.mul_succ, Finset.sum_range_add, sum_range_blocks f b n, Finset.sum_range_succ]

/-- Entry `(r, c)` of the result is the sum of the 8 contraction blocks' contributions. -/
theorem G_eq_sum_blocks (X W : Mat) (r c : Fin 4096) :
    G X W (ix2 r c) = ∑ s ∈ Finset.range 8, blockTerm X W r.val c.val s := by
  have h1 : G X W (ix2 r c)
      = ∑ κ ∈ Finset.range 4096, entry X r.val κ * Cert.Tern.ternE (entry W κ c.val) := by
    rw [Finset.sum_range]
    unfold G
    refine Finset.sum_congr rfl fun k _ => ?_
    rw [entry_of_lt X r.val k.val r.isLt k.isLt, entry_of_lt W k.val c.val k.isLt c.isLt]
  rw [h1]
  exact sum_range_blocks (fun κ => entry X r.val κ * Cert.Tern.ternE (entry W κ c.val)) 512 8

end Cert.Spec

end
-- ==== Proof.Blocks.lean ====
/-
  Where a grid point's blocks lie in the whole arrays.

  The grid has 4 · 4 · 8 = 128 points, walked with the contraction coordinate fastest: point `t` has row-block
  coordinate `t / 32`, column-block coordinate `t / 8 % 4` and contraction-block coordinate `t % 8`. At it the
  left operand's window holds rows `1024·(t/32) …` and columns `512·(t%8) …` of `X`, the weights' window rows
  `512·(t%8) …` and columns `1024·(t/8%4) …` of `W`, and the result's window rows `1024·(t/32) …` and columns
  `1024·(t/8%4) …` of the result. A block's coordinate is always (block index) × (block size) + (coordinate inside
  the block).
-/
import proofs.«144703_j14027363189199_1_alg».proof.Proof.Gen.KernelIdeal.Frame
import proofs.«144703_j14027363189199_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three windows' block indices at every grid point, decided once over the 128 points. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4 :=
  (by decide +kernel : ∀ t : Fin grid0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4)

/-- The grid has 128 points. -/
theorem lt_128 (t : Fin cfg0.N) : t.val < 128 := lt_of_lt_of_eq t.isLt (show cfg0.N = 128 from N_0)

/-- The left operand's block at point `t`: entry `(p, kk)` of it is entry `(1024·(t/32) + p, 512·(t%8) + kk)` of `X`. -/
theorem xblk_apply (c : Dev nD) (t : Fin cfg0.N) (p : Fin 1024) (kk : Fin 512)
    (hr : 1024 * (t.val / 32) + p.val < 4096) (hk : 512 * (t.val % 8) + kk.val < 4096) :
    (iblk m c 0 t : Vec F S1024x512 .f32) (ix2 p kk)
      = (m ((c : Thread nD τ).loc main_arg0) : Vec F S4096x4096 .f32) (ix2 ⟨1024 * (t.val / 32) + p.val, hr⟩ ⟨512 * (t.val % 8) + kk.val, hk⟩) := by
  unfold iblk
  rw [View.read_apply]
  show V m c main_arg0 _ = _
  unfold V
  congr 1
  funext a
  apply Fin.ext
  match a with
  | ⟨0, _⟩ => show win0_0.index t 0 * 1024 + 1 * p.val = 1024 * (t.val / 32) + p.val; rw [(idx_facts t).1]; omega
  | ⟨1, _⟩ => show win0_0.index t 1 * 512 + 1 * kk.val = 512 * (t.val % 8) + kk.val; rw [(idx_facts t).2.1]; omega

/-- The weights' block at point `t`: entry `(kk, q)` of it is entry `(512·(t%8) + kk, 1024·(t/8%4) + q)` of `W`. -/
theorem wblk_apply (c : Dev nD) (t : Fin cfg0.N) (kk : Fin 512) (q : Fin 1024)
    (hk : 512 * (t.val % 8) + kk.val < 4096) (hc : 1024 * (t.val / 8 % 4) + q.val < 4096) :
    (iblk m c 1 t : Vec F S512x1024 .f32) (ix2 kk q)
      = (m ((c : Thread nD τ).loc main_arg1) : Vec F S4096x4096 .f32) (ix2 ⟨512 * (t.val % 8) + kk.val, hk⟩ ⟨1024 * (t.val / 8 % 4) + q.val, hc⟩) := by
  unfold iblk
  rw [View.read_apply]
  show V m c main_arg1 _ = _
  unfold V
  congr 1
  funext a
  apply Fin.ext
  match a with
  | ⟨0, _⟩ => show win0_1.index t 0 * 512 + 1 * kk.val = 512 * (t.val % 8) + kk.val; rw [(idx_facts t).2.2.1]; omega
  | ⟨1, _⟩ => show win0_1.index t 1 * 1024 + 1 * q.val = 1024 * (t.val / 8 % 4) + q.val; rw [(idx_facts t).2.2.2.1]; omega

end Cert.KernelIdeal.Blocks

end
-- ==== Proof.PayAt.lean ====
/-
  The two values the kernel stores into its accumulator, read at one entry.

  At the first contraction block the accumulator is set to a splat of the word of 0.0, which is the extended real 0 at
  every entry. At every block the kernel then stores, at entry (p, q), the accumulator's old entry plus the block's
  partial product: the sum over the 512 contraction positions kk of the left block's entry (p, kk) times the
  ternarized right block's entry (kk, q). The narrowing format changes in front of the product are the identity on
  extended reals, the product accumulates into a zero splat (so it contributes only its sum), and the chain of
  clip, comparisons and selects applied to the right block is, entry by entry, the scalar ternarization. The product's
  own contraction index is a one-axis multi-index; the sum is re-indexed to the plain position kk through the bijection
  between the two, and the operand indices it builds are (p, kk) on the left and (kk, q) on the right.
-/
import proofs.«144703_j14027363189199_1_alg».proof.Proof.Gen.KernelIdeal.Skeleton
import proofs.«144703_j14027363189199_1_alg».proof.Proof.Tern
import Idealize.ShloMosaic.Lib.Pipeline.Value
import Idealize.ShloMosaic.Lib.ValueIdx
import Idealize.ShloMosaic.PureOps.Ideal.Laws

noncomputable section

namespace Cert.PayAt

open Cert.KernelIdeal Cert.KernelIdeal.Gen Idealize.ShloMosaic Idealize.ShloMosaic.ValueIdx

/-- The initial store: the zero splat, cast to its own shape, is 0 at every entry. -/
theorem pay1_apply (i : Cert.KernelIdeal.S1024x1024.Idx) : Cert.KernelIdeal.Gen.k0_pay1 (F := Ideal) i = 0 :=
  (congrFun (shapeCast_self (broadcast S1024x1024 (Scalar.ofBits (F := Ideal) .f32 0x00000000#32))
    shapeCasts_S1024x1024_S1024x1024) i).trans Ideal.ofBits_zero_f32

/-- The product's left operand index on the row axis is the output row. -/
theorem lhs_pay2_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- The product's left operand index on the contracted axis is the contraction position. -/
theorem lhs_pay2_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- The product's right operand index on the contracted axis is the contraction position. -/
theorem rhs_pay2_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- The product's right operand index on the column axis is the output column. -/
theorem rhs_pay2_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- A block product into the zero splat, read at entry (p, q): the sum over the 512 contraction positions of the
    left operand at (p, kk) times the right operand at (kk, q). -/
theorem matmul_zero_at {φ₁ φ₂ : FTy} (A : FVec Ideal S1024x512 φ₁) (B : FVec Ideal S512x1024 φ₂) (p q : Fin 1024) :
    FloatOps.matmul dot_S1024x512_S512x1024_S1024x1024_1_0_0_1_n_n none A B (constant S1024x1024 .f32 0x00000000#32) (ix2 p q)
      = ∑ kk : Fin 512, A (ix2 p kk) * B (ix2 kk q) := by
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_pay2_0 _ _
    | ⟨1, _⟩ => exact (lhs_pay2_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_pay2_0 _ _).trans hk
    | ⟨1, _⟩ => exact rhs_pay2_1 _ _)
  rw [el, er]

/-- The accumulating store at entry (p, q): the old entry plus the block's partial product with the ternarized weights. -/
theorem pay2_apply (v3 : Vec Ideal Cert.KernelIdeal.S512x1024 .f32) (v20 : Vec Ideal Cert.KernelIdeal.S1024x512 .f32)
    (v23 : Vec Ideal Cert.KernelIdeal.S1024x1024 .f32) (p q : Fin 1024) :
    Cert.KernelIdeal.Gen.k0_pay2 (F := Ideal) v3 v20 v23 (ix2 p q)
      = v23 (ix2 p q) + ∑ kk : Fin 512, v20 (ix2 p kk) * Cert.Tern.ternE (v3 (ix2 kk q)) := by
  unfold k0_pay2
  refine (congrFun (shapeCast_self _ shapeCasts_S1024x1024_S1024x1024) (ix2 p q)).trans ?_
  refine (addf_apply _ _ (ix2 p q)).trans ?_
  refine congrArg (v23 (ix2 p q) + ·) ?_
  refine (matmul_zero_at _ _ p q).trans ?_
  rfl

end Cert.PayAt

end
-- ==== Proof.Accum.lean ====
/-
  The accumulator across the grid, and what the last contraction block writes out.

  Fix a row block and a column block. The eight grid points with that pair, `8·(t/8) … 8·(t/8) + 7`, walk the eight
  contraction blocks in order. Point `n` adds to entry `(p, q)` of the accumulator the contribution of its
  contraction block `n % 8` to entry `(1024·(n/32) + p, 1024·(n/8%4) + q)` of the result (`addend`); the first of the
  eight starts from zero. So after point `t` the accumulator holds the sum of the addends of the points
  `8·(t/8) … t` (`scratch_after`: the fold of the per-point step, unrolled into a sum), and at the last of the eight,
  where the output block receives a copy of the accumulator, that is the sum over all eight contraction blocks: the
  result `G` at the block's entry (`out_at_flush`).
-/
import proofs.«144703_j14027363189199_1_alg».proof.Proof.Gen.KernelIdeal.Value
import proofs.«144703_j14027363189199_1_alg».proof.Proof.Pieces
import proofs.«144703_j14027363189199_1_alg».proof.Proof.Blocks
import proofs.«144703_j14027363189199_1_alg».proof.Proof.PayAt
import proofs.«144703_j14027363189199_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The left operand and the weights, as launched. -/
abbrev X (c : Dev nD) : Cert.Spec.Mat := m ((c : Thread nD τ).loc main_arg0)
abbrev W (c : Dev nD) : Cert.Spec.Mat := m ((c : Thread nD τ).loc main_arg1)

/-- What point `n` adds to entry `i` of the accumulator: its contraction block's contribution to the result entry
    the accumulator's entry stands for. -/
def addend (c : Dev nD) (n : ℕ) (i : S1024x1024.Idx) : EReal :=
  Cert.Spec.blockTerm (X m c) (W m c) (1024 * (n / 32) + (i 0).val) (1024 * (n / 8 % 4) + (i 1).val) (n % 8)

/-- One step at point `t`, at an entry: the accumulator's old entry plus the point's addend. -/
theorem step_apply (c : Dev nD) (t : Fin cfg0.N) (acc : Vec Ideal S1024x1024 .f32) (i : S1024x1024.Idx) :
    k0_pay2 (F := Ideal) (iblk m c 1 t) (iblk m c 0 t) acc i = acc i + addend m c t.val i := by
  obtain ⟨p, q, rfl⟩ : ∃ (p q : Fin 1024), i = ix2 p q := ⟨i 0, i 1, eq_ix2 i⟩
  refine (Cert.PayAt.pay2_apply (iblk m c 1 t) (iblk m c 0 t) acc p q).trans ?_
  refine congrArg (acc (ix2 p q) + ·) ?_
  have ht := Blocks.lt_128 t
  have hp := p.isLt
  have hq := q.isLt
  show _ = ∑ kk ∈ Finset.range 512, Cert.Spec.entry (X m c) (1024 * (t.val / 32) + p.val) (512 * (t.val % 8) + kk)
      * Cert.Tern.ternE (Cert.Spec.entry (W m c) (512 * (t.val % 8) + kk) (1024 * (t.val / 8 % 4) + q.val))
  rw [Finset.sum_range]
  refine Finset.sum_congr rfl fun kk _ => ?_
  have hkk := kk.isLt
  rw [Cert.Spec.entry_of_lt (X m c) _ _ (by omega) (by omega), Cert.Spec.entry_of_lt (W m c) _ _ (by omega) (by omega)]
  exact congrArg₂ (· * ·) (Blocks.xblk_apply m c t p kk (by omega) (by omega))
    (congrArg Cert.Tern.ternE (Blocks.wblk_apply m c t kk q (by omega) (by omega)))

/-- The per-point step of the accumulator at the first of a run of eight points: it does not read what the
    accumulator held and leaves zero plus the point's addend. -/
theorem scAt_reset (c : Dev nD) (n : ℕ) (h : n < cfg0.N) (h0 : n % 8 = 0) (old : Vec Ideal S1024x1024 .f32) (i : S1024x1024.Idx) :
    Value.scAt0_0 m c n h old i = 0 + addend m c n i := by
  unfold Value.scAt0_0
  rw [dif_pos h0, dif_neg (by omega)]
  rw [Pieces.scratch_A]
  refine (step_apply m c ⟨n, h⟩ _ i).trans ?_
  rw [Cert.PayAt.pay1_apply]

/-- The per-point step at every other point: what the accumulator held plus the point's addend. -/
theorem scAt_step (c : Dev nD) (n : ℕ) (h : n < cfg0.N) (h0 : ¬n % 8 = 0) (acc : Vec Ideal S1024x1024 .f32) (i : S1024x1024.Idx) :
    Value.scAt0_0 m c n h acc i = acc i + addend m c n i := by
  unfold Value.scAt0_0
  rw [dif_neg h0]
  by_cases h1 : n % 8 = 7
  · rw [dif_pos h1, Pieces.scratch_C]
    exact step_apply m c ⟨n, h⟩ acc i
  · rw [dif_neg h1, Pieces.scratch_B]
    exact step_apply m c ⟨n, h⟩ acc i

/-- After point `t` the accumulator holds the sum of the addends of the points of its run up to `t`. -/
theorem scratch_after (c : Dev nD) (t : Fin cfg0.N) (i : S1024x1024.Idx) :
    (outsAt0 m c t.val t.isLt).2 i = 0 + ∑ s ∈ Finset.range (t.val % 8 + 1), addend m c (8 * (t.val / 8) + s) i := by
  rw [Value.soutsAt0_0_eq m c t]
  exact Pipeline.accAt_add_apply (fun n h => Value.scAt0_0 m c n h (VS0_0.read (Elt Ideal) VS0_0.junk)) (Value.scAt0_0 m c)
    (fun _ => 0) (addend m c) (8 * (t.val / 8)) 7
    (fun h i => scAt_reset m c _ h (by omega) _ i)
    (fun n h acc i hb he => scAt_step m c n h (by omega) acc i)
    (t.val % 8) (by omega) _ i

/-- At the last contraction block the output block is a copy of the accumulator. -/
theorem out_eq_scratch (c : Dev nD) (t : Fin cfg0.N) (h7 : t.val % 8 = 7) :
    (outsAt0 m c t.val t.isLt).1 = (outsAt0 m c t.val t.isLt).2 := by
  rw [outsAt0_C m c t (by omega) h7]
  dsimp only
  rw [Pieces.out_C, Pieces.scratch_C]

/-- What the last contraction block writes out, at an entry: the result `G` at the entry of the whole array that the
    block's entry stands for. -/
theorem out_at_flush (c : Dev nD) (t : Fin cfg0.N) (h7 : t.val % 8 = 7) (i : S1024x1024.Idx)
    (hr : 1024 * (t.val / 32) + (i 0).val < 4096) (hc : 1024 * (t.val / 8 % 4) + (i 1).val < 4096) :
    (outsAt0 m c t.val t.isLt).1 i
      = Cert.Spec.G (X m c) (W m c) (ix2 ⟨1024 * (t.val / 32) + (i 0).val, hr⟩ ⟨1024 * (t.val / 8 % 4) + (i 1).val, hc⟩) := by
  rw [out_eq_scratch m c t h7, scratch_after, zero_add, h7, Cert.Spec.G_eq_sum_blocks]
  refine Finset.sum_congr rfl fun s hs => ?_
  have hs' : s < 8 := Finset.mem_range.mp hs
  unfold addend
  rw [show (8 * (t.val / 8) + s) / 32 = t.val / 32 from by omega, show (8 * (t.val / 8) + s) / 8 % 4 = t.val / 8 % 4 from by omega,
    show (8 * (t.val / 8) + s) % 8 = s from by omega]

end Cert.KernelIdeal.Acc

end
-- ==== Proof.Result.lean ====
/-
  From blocks to the array: after the run the result array holds `G` of the two arguments.

  The result's window is written back only at the last contraction block of each (row block, column block) pair,
  the points `t` with `t % 8 = 7`; what is written there is block `(t/32, t/8%4)` of `G` (`flushed_eq`, from the
  accumulation). Every entry `(r, c)` of the 4096 × 4096 result lies in exactly such a block, that of the point
  `32·(r/1024) + 8·(c/1024) + 7` (`cover`), so the array after the run is `G` everywhere (`final`).
-/
import proofs.«144703_j14027363189199_1_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- What the result array ends holding: `X` times the ternarized `W`, of the arguments as launched. -/
abbrev result (c : Dev nD) : Buf (Elt Ideal) ((c : Thread nD τ).loc main_v0) := Cert.Spec.G (Acc.X m c) (Acc.W m c)

/-- What a writing point writes back is its block of the result. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have ht := Blocks.lt_128 t
  rw [Value.flushed2]
  funext j
  have hj0 : (j 0).val < 1024 := (j 0).isLt
  have hj1 : (j 1).val < 1024 := (j 1).isLt
  show (outsAt0 m c t.val t.isLt).1 j = result m c (((cfg0.win 2).blk t).view.emb j)
  rw [Acc.out_at_flush m c t h7 j (by omega) (by omega)]
  show Cert.Spec.G (Acc.X m c) (Acc.W m c) _ = Cert.Spec.G (Acc.X m c) (Acc.W m c) _
  congr 1
  funext a
  apply Fin.ext
  obtain ⟨-, -, -, -, e4, e5⟩ := Blocks.idx_facts t
  match a with
  | ⟨0, _⟩ => show 1024 * (t.val / 32) + (j 0).val = win0_2.index t (0 : Fin 2) * 1024 + 1 * (j 0).val; rw [e4]; omega
  | ⟨1, _⟩ => show 1024 * (t.val / 8 % 4) + (j 1).val = win0_2.index t (1 : Fin 2) * 1024 + 1 * (j 1).val; rw [e5]; omega

/-- An entry of the array is in point `t`'s block iff each coordinate is in the block's range on its axis. -/
theorem mem_blk (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the result lies in the block some writing point writes. -/
theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 128 := N_0
  have hb : 32 * ((i 0).val / 1024) + 8 * ((i 1).val / 1024) + 7 < cfg0.N := by rw [hN]; omega
  refine ⟨⟨32 * ((i 0).val / 1024) + 8 * ((i 1).val / 1024) + 7, hb⟩, (flush0_2 _).mpr (by show (32 * ((i 0).val / 1024) + 8 * ((i 1).val / 1024) + 7) % 8 = 7; omega), ?_⟩
  rw [mem_blk]
  obtain ⟨-, -, -, -, e4, e5⟩ := Blocks.idx_facts ⟨32 * ((i 0).val / 1024) + 8 * ((i 1).val / 1024) + 7, hb⟩
  intro a
  match a with
  | ⟨0, _⟩ =>
    show win0_2.index ⟨32 * ((i 0).val / 1024) + 8 * ((i 1).val / 1024) + 7, hb⟩ (0 : Fin 2) * 1024 ≤ (i 0).val
      ∧ (i 0).val < win0_2.index ⟨32 * ((i 0).val / 1024) + 8 * ((i 1).val / 1024) + 7, hb⟩ (0 : Fin 2) * 1024 + 1024
    rw [e4]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_2.index ⟨32 * ((i 0).val / 1024) + 8 * ((i 1).val / 1024) + 7, hb⟩ (1 : Fin 2) * 1024 ≤ (i 1).val
      ∧ (i 1).val < win0_2.index ⟨32 * ((i 0).val / 1024) + 8 * ((i 1).val / 1024) + 7, hb⟩ (1 : Fin 2) * 1024 + 1024
    rw [e5]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- The result array after the run. -/
theorem final (c : Dev nD) : (dats m 0 c).arrAt 2 cfg0.N = result m c :=
  (dats m 0 c).arrAt_eq_of_cover 2 (result m c) (flushed_eq m c) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.RefValue.lean ====
/-
  The reference computes X times the ternarized weights.

  Its last operation is one contraction: entry (r, c) of the result is the sum over k < 4096 of X (r, k) times
  V (k, c), where V = W + (tern W - W) elementwise is the straight-through weight. Elementwise, V at an entry
  is w + (tern w - w) for the weight w there: every operation between the weight and V acts entry by entry, and a
  scalar constant spread over the array is that constant at each entry, so this is read off by unfolding alone.
  For a real w the two summands w and -w cancel, leaving tern w. Every weight is real by assumption, so each
  term of the sum is X (r, k) times tern (W (k, c)), which is the specification's term.
-/
import proofs.«144703_j14027363189199_1_alg».proof.Proof.Gen.ReferenceIdeal.Read
import proofs.«144703_j14027363189199_1_alg».proof.Proof.Spec
import proofs.«144703_j14027363189199_1_alg».proof.Proof.Tern

noncomputable section

namespace Cert.RefValue

open Idealize.ShloMosaic Idealize.ShloMosaic.ValueIdx Cert.ReferenceIdeal.Read

/-- The left operand of the contraction is read at (row of the result, k). -/
theorem lidx_eq (i : Cert.ReferenceIdeal.S4096x4096.Idx) (k : Fin 4096) :
    lidx_main_v13 i k = ix2 (n0 := 4096) (n1 := 4096) (i 0) k :=
  funext fun a => Fin.ext (by match a with | ⟨0, _⟩ => rfl | ⟨1, _⟩ => rfl)

/-- The right operand of the contraction is read at (k, column of the result). -/
theorem ridx_eq (i : Cert.ReferenceIdeal.S4096x4096.Idx) (k : Fin 4096) :
    ridx_main_v13 i k = ix2 (n0 := 4096) (n1 := 4096) k (i 1) :=
  funext fun a => Fin.ext (by match a with | ⟨0, _⟩ => rfl | ⟨1, _⟩ => rfl)

/-- The straight-through weight at an entry: w + (tern w - w) for the weight w at that entry. -/
theorem v12_apply (x1 : Cert.Spec.Mat) (j : Cert.ReferenceIdeal.S4096x4096.Idx) :
    val_main_v12 (F := Ideal) x1 j = x1 j + (Cert.Tern.ternE (x1 j) - x1 j) := rfl

/-- With every weight real, the reference's result is X times the ternarized weights. -/
theorem ref_eq_G (x0 x1 : Cert.Spec.Mat) (hfin : ∀ j, ∃ r : ℝ, x1 j = (r : EReal)) :
    Cert.ReferenceIdeal.Read.val_main_v13 (F := Ideal) x0 x1 = Cert.Spec.G x0 x1 := by
  funext i
  rw [val_main_v13_apply]
  unfold Cert.Spec.G
  refine Finset.sum_congr rfl fun k _ => ?_
  rw [lidx_eq, ridx_eq, v12_apply, Cert.Tern.ste_eq _ (hfin _)]

end Cert.RefValue

end
-- ==== Proof.Finite.lean ====
/-
  Every weight is a real number.

  The precondition says two things, joined by a one-bit "and": all entries x of the first array satisfy
  |x| < +inf, and all entries w of the second (the weights) satisfy |w| < +inf. Each "all" is a reduction by
  "and" over the whole array that starts from 1, so a result of 1 means the compared bit is 1 at every entry.
  In the extended reals |w| is max w (-w), and the word 0x7F800000 denotes +inf. So at every entry
  max w (-w) < +inf, which excludes w = +inf (then max w (-w) = +inf) and w = -inf (then -w = +inf):
  what remains is the case that w is a real.
-/
import proofs.«144703_j14027363189199_1_alg».proof.Defs
import Idealize.ShloMosaic.Lib.ReduceAll
import Idealize.ShloMosaic.Lib.ValueIdx
import Idealize.ShloMosaic.PureOps.Ideal

noncomputable section

namespace Cert.Finite

open Idealize.ShloMosaic Idealize.SL.Sem

/-- An array of rank 0 has exactly one index. -/
instance : Subsingleton Cert.Pre_finite_inputs.S_.Idx := ⟨fun a b => funext fun d => d.elim0⟩

/-- An extended real whose absolute value max x (-x) is strictly below the value of the word
    0x7F800000 (which is +inf) is a real number: both infinities have absolute value +inf. -/
theorem real_of_abs_lt_top (x : EReal)
    (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | coe r => exact ⟨r, rfl⟩
  | top => exact absurd h (by simp [Ideal.cmp])

/-- Under the precondition, every entry of the weight array (the second argument) is a real number. -/
theorem weight_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S4096x4096.Idx) :
    ∃ r : ℝ, m ((c.tc : Thread Cert.KernelIdeal.nD Cert.KernelIdeal.τ).loc Cert.KernelIdeal.main_arg1) j = (r : EReal) := by
  -- the predicate's one result bit is 1
  have h0 := congrFun (h c) ValueIdx.ix0
  dsimp only [Cert.Pre_finite_inputs.fn] at h0
  -- it is the "and" of two bits; the second speaks of the weights
  obtain ⟨_, h2⟩ := IntOp.andi_eq_one.1 h0
  -- a reduction by "and" that came out 1 met a 1 at every entry, in particular at j
  have h3 := Host.reduce_andi_all _ _ _ _ _ h2 j
  -- at j the compared bit is "max w (-w) < +inf"
  exact real_of_abs_lt_top _ h3

end Cert.Finite

end
-- ==== Proof.lean ====
/-
  A tiled matrix product with ternarized weights equals the plain product with the straight-through weights.

  The kernel computes `out = X · tern W` for `X, W` of 4096 × 4096 entries, where `tern w` clips `w` to [-1, 1],
  takes +1 where the clipped value is ≥ 0 and -1 elsewhere, and 0 where the clipped value lies in [-1/2, 1/2]. It walks a
  4 × 4 × 8 grid: for each 1024 × 1024 block of the result it adds, contraction block after contraction block (8 of
  512), the partial product `X_block · tern W_block` into an accumulator that it zeroes at the first block, and it
  copies the accumulator into the result block after the last. The reference forms the straight-through weights
  `W + (tern W - W)` and takes one product `X · (W + (tern W - W))`.

  Over the extended reals both are the function `G X W (r, c) = ∑ k < 4096, X (r, k) · tern (W (k, c))`:
    * the kernel, because the narrowing format changes are the identity, a block product into a zero accumulator is its
      plain sum, and the sum over `k < 8 · 512` regroups into the eight blocks' sums (addition of extended reals is
      commutative and associative: no finiteness is needed here);
    * the reference, because at a FINITE weight `w` the summands `w` and `-w` of `w + (tern w - w)` cancel (at an
      infinite one they would not), and the precondition says every weight is finite.
  The three frames are the generated ones (the reference's is its run with the result dropped); the idealization
  rewrote nothing, so `preserves` is trivial.
-/
import proofs.«144703_j14027363189199_1_alg».proof.Defs
import proofs.«144703_j14027363189199_1_alg».proof.Proof.Gen.Kernel
import proofs.«144703_j14027363189199_1_alg».proof.Proof.Gen.Kernel.Skeleton
import proofs.«144703_j14027363189199_1_alg».proof.Proof.Gen.Kernel.Launch
import proofs.«144703_j14027363189199_1_alg».proof.Proof.Gen.Kernel.Points
import proofs.«144703_j14027363189199_1_alg».proof.Proof.Gen.Kernel.Frame
import proofs.«144703_j14027363189199_1_alg».proof.Proof.Gen.KernelIdeal
import proofs.«144703_j14027363189199_1_alg».proof.Proof.Gen.KernelIdeal.Skeleton
import proofs.«144703_j14027363189199_1_alg».proof.Proof.Gen.KernelIdeal.Launch
import proofs.«144703_j14027363189199_1_alg».proof.Proof.Gen.KernelIdeal.Points
import proofs.«144703_j14027363189199_1_alg».proof.Proof.Gen.KernelIdeal.Frame
import proofs.«144703_j14027363189199_1_alg».proof.Proof.Gen.ReferenceIdeal
import proofs.«144703_j14027363189199_1_alg».proof.Proof.Gen.Pre_finite_inputs
import proofs.«144703_j14027363189199_1_alg».proof.Proof.Gen.KernelIdeal.Value
import proofs.«144703_j14027363189199_1_alg».proof.Proof.Gen.ReferenceIdeal.Run
import proofs.«144703_j14027363189199_1_alg».proof.Proof.Gen.ReferenceIdeal.Read
import proofs.«144703_j14027363189199_1_alg».proof.Proof.Result
import proofs.«144703_j14027363189199_1_alg».proof.Proof.RefValue
import proofs.«144703_j14027363189199_1_alg».proof.Proof.Finite
import Idealize.ShloMosaic.Adequacy
import Idealize.ShloMosaic.Init

noncomputable section

namespace Cert.Proof

open Idealize.ShloMosaic Idealize.SL.Sem

/-- The kernel's run is a run of the printed program at the word level: terminating, fault-free, arguments kept. -/
theorem frame_kernel : @Cert.frame_Kernel Cert.Kernel.Gen.facts Cert.Pre_finite_inputs.Gen.facts :=
  fun m ρ _ => Cert.Kernel.Gen.frame m ρ

/-- The same of the idealized kernel. -/
theorem frame_kernelIdeal : @Cert.frame_KernelIdeal Cert.KernelIdeal.Gen.facts Cert.Pre_finite_inputs.Gen.facts :=
  fun m ρ _ => Cert.KernelIdeal.Gen.frame m ρ

/-- The reference's frame: its run, the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on `X` and `W`, with every weight finite, the kernel's result array and the reference's
    both end at `G X W`. -/
theorem algebraic :
    @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v13 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]
  exact Cert.RefValue.ref_eq_G _ _ (fun j => Cert.Finite.weight_real (hP := Cert.Pre_finite_inputs.Gen.facts) m hpre c j)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
